-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2) = v0 c
          ∧ r.2.mem ((c.tc : Thread Cert.ReferenceIdeal.nD Cert.ReferenceIdeal.τ).loc Cert.ReferenceIdeal.main_v6) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x512 : Shape := ⟨2, ![16384, 512]⟩
abbrev S16384x768 : Shape := ⟨2, ![16384, 768]⟩
abbrev S16384x256 : Shape := ⟨2, ![16384, 256]⟩
abbrev S_ : Shape := ⟨0, ![]⟩

class Facts : Prop where
  bcast_S_S16384x512 : S_.BroadcastsInDim S16384x512 (![] : Fin 0 → Fin S16384x512.rank)
  reducesTo_S16384x512_S_d0_1 : S16384x512.ReducesTo [0, 1] S_
  h_S_ : 0 < S_.numel
  bcast_S_S16384x768 : S_.BroadcastsInDim S16384x768 (![] : Fin 0 → Fin S16384x768.rank)
  reducesTo_S16384x768_S_d0_1 : S16384x768.ReducesTo [0, 1] S_
  bcast_S_S16384x256 : S_.BroadcastsInDim S16384x256 (![] : Fin 0 → Fin S16384x256.rank)
  reducesTo_S16384x256_S_d0_1 : S16384x256.ReducesTo [0, 1] S_

variable [Facts]

def fn {F : FTy → Type} [FloatOps F] (main_arg0 : FVec F S16384x512 .f32) (main_arg1 : FVec F S16384x768 .f32) (main_arg2 : FVec F S16384x256 .f32) : IVec S_ 1 :=
  let main_v0 : FVec F S16384x512 .f32 := Host.absf main_arg0
  let main_cst : FVec F S_ .f32 := constant S_ .f32 0x7F800000#32
  let main_v1 : FVec F S16384x512 .f32 := broadcastInDim S16384x512 ![] bcast_S_S16384x512 main_cst
  let main_v2 : IVec S16384x512 1 := cmpf .olt main_v0 main_v1
  let main_c : IVec S_ 1 := constantI S_ 1 1#1
  let main_v3 : IVec S_ 1 := (fun x v => Host.reduce IntOp.andi x v reducesTo_S16384x512_S_d0_1 h_S_) main_v2 main_c
  let main_v4 : FVec F S16384x768 .f32 := Host.absf main_arg1
  let main_cst_0 : FVec F S_ .f32 := constant S_ .f32 0x7F800000#32
  let main_v5 : FVec F S16384x768 .f32 := broadcastInDim S16384x768 ![] bcast_S_S16384x768 main_cst_0
  let main_v6 : IVec S16384x768 1 := cmpf .olt main_v4 main_v5
  let main_c_1 : IVec S_ 1 := constantI S_ 1 1#1
  let main_v7 : IVec S_ 1 := (fun x v => Host.reduce IntOp.andi x v reducesTo_S16384x768_S_d0_1 h_S_) main_v6 main_c_1
  let main_v8 : IVec S_ 1 := andi main_v3 main_v7
  let main_v9 : FVec F S16384x256 .f32 := Host.absf main_arg2
  let main_cst_2 : FVec F S_ .f32 := constant S_ .f32 0x7F800000#32
  let main_v10 : FVec F S16384x256 .f32 := broadcastInDim S16384x256 ![] bcast_S_S16384x256 main_cst_2
  let main_v11 : IVec S16384x256 1 := cmpf .olt main_v9 main_v10
  let main_c_3 : IVec S_ 1 := constantI S_ 1 1#1
  let main_v12 : IVec S_ 1 := (fun x v => Host.reduce IntOp.andi x v reducesTo_S16384x256_S_d0_1 h_S_) main_v11 main_c_3
  let main_v13 : IVec S_ 1 := andi main_v8 main_v12
  main_v13
-- ==== Kernel.lean ====
abbrev S16384x512 : Shape := ⟨2, ![16384, 512]⟩
abbrev S16384x768 : Shape := ⟨2, ![16384, 768]⟩
abbrev S16384x256 : Shape := ⟨2, ![16384, 256]⟩
abbrev S16384x640 : Shape := ⟨2, ![16384, 640]⟩
abbrev S16384x896 : Shape := ⟨2, ![16384, 896]⟩
abbrev S1024x512 : Shape := ⟨2, ![1024, 512]⟩
abbrev S1024x768 : Shape := ⟨2, ![1024, 768]⟩
abbrev S1024x256 : Shape := ⟨2, ![1024, 256]⟩
abbrev S1024x640 : Shape := ⟨2, ![1024, 640]⟩
abbrev S1024x896 : Shape := ⟨2, ![1024, 896]⟩
abbrev S1024x128 : Shape := ⟨2, ![1024, 128]⟩

abbrev nBuf : Space → Nat
  | .hbm => 5
  | .vmem => 10
  | .smem => 0
  | _ => 0

abbrev bufTy : (tb : Table) → Fin (tcTables nBuf tb) → BufTy
  | .hbm, ⟨0, _⟩ => ⟨S16384x512, .f32⟩
  | .hbm, ⟨1, _⟩ => ⟨S16384x768, .f32⟩
  | .hbm, ⟨2, _⟩ => ⟨S16384x256, .f32⟩
  | .hbm, ⟨3, _⟩ => ⟨S16384x640, .f32⟩
  | .hbm, ⟨4, _⟩ => ⟨S16384x896, .f32⟩
  | .local _ .vmem, ⟨0, _⟩ => ⟨S1024x512, .f32⟩
  | .local _ .vmem, ⟨1, _⟩ => ⟨S1024x512, .f32⟩
  | .local _ .vmem, ⟨2, _⟩ => ⟨S1024x768, .f32⟩
  | .local _ .vmem, ⟨3, _⟩ => ⟨S1024x768, .f32⟩
  | .local _ .vmem, ⟨4, _⟩ => ⟨S1024x256, .f32⟩
  | .local _ .vmem, ⟨5, _⟩ => ⟨S1024x256, .f32⟩
  | .local _ .vmem, ⟨6, _⟩ => ⟨S1024x640, .f32⟩
  | .local _ .vmem, ⟨7, _⟩ => ⟨S1024x640, .f32⟩
  | .local _ .vmem, ⟨8, _⟩ => ⟨S1024x896, .f32⟩
  | .local _ .vmem, ⟨9, _⟩ => ⟨S1024x896, .f32⟩
  | _, _ => ⟨S16384x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x640 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x896 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  inb_S1024x512_S1024x512_0_0 : ∀ a, (![0, 0] : Fin 2 → Nat) a + S1024x512.size a ≤ S1024x512.size a
  h_S1024x512 : 0 < S1024x512.numel
  inb_S1024x768_S1024x768_0_0 : ∀ a, (![0, 0] : Fin 2 → Nat) a + S1024x768.size a ≤ S1024x768.size a
  h_S1024x768 : 0 < S1024x768.numel
  inb_S1024x256_S1024x256_0_0 : ∀ a, (![0, 0] : Fin 2 → Nat) a + S1024x256.size a ≤ S1024x256.size a
  h_S1024x256 : 0 < S1024x256.numel
  slices_S1024x512_o0_0_S1024x128 : S1024x512.Slices ![0, 0] S1024x128
  inb_S1024x640_S1024x128_0_0 : ∀ a, (![0, 0] : Fin 2 → Nat) a + S1024x128.size a ≤ S1024x640.size a
  h_S1024x128 : 0 < S1024x128.numel
  slices_S1024x768_o0_0_S1024x256 : S1024x768.Slices ![0, 0] S1024x256
  inb_S1024x640_S1024x256_0_128 : ∀ a, (![0, 128] : Fin 2 → Nat) a + S1024x256.size a ≤ S1024x640.size a
  inb_S1024x640_S1024x256_0_384 : ∀ a, (![0, 384] : Fin 2 → Nat) a + S1024x256.size a ≤ S1024x640.size a
  slices_S1024x512_o0_128_S1024x256 : S1024x512.Slices ![0, 128] S1024x256
  inb_S1024x896_S1024x256_0_0 : ∀ a, (![0, 0] : Fin 2 → Nat) a + S1024x256.size a ≤ S1024x896.size a
  slices_S1024x768_o0_256_S1024x512 : S1024x768.Slices ![0, 256] S1024x512
  inb_S1024x896_S1024x512_0_256 : ∀ a, (![0, 256] : Fin 2 → Nat) a + S1024x512.size a ≤ S1024x896.size a
  slices_S1024x512_o0_384_S1024x128 : S1024x512.Slices ![0, 384] S1024x128
  inb_S1024x896_S1024x128_0_768 : ∀ a, (![0, 768] : Fin 2 → Nat) a + S1024x128.size a ≤ S1024x896.size a
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S16384x512.size a
  hwx0_0 : ∀ i : grid0.Coords, EltTy.bits .f32 = 32 ∨ (Rect.block (s := S16384x512) S1024x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x768.size a ≤ S16384x768.size a
  hwx0_1 : ∀ i : grid0.Coords, EltTy.bits .f32 = 32 ∨ (Rect.block (s := S16384x768) S1024x768.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x256.size a ≤ S16384x256.size a
  hwx0_2 : ∀ i : grid0.Coords, EltTy.bits .f32 = 32 ∨ (Rect.block (s := S16384x256) S1024x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x640.size a ≤ S16384x640.size a
  hwx0_3 : ∀ i : grid0.Coords, EltTy.bits .f32 = 32 ∨ (Rect.block (s := S16384x640) S1024x640.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x896.size a ≤ S16384x896.size a
  hwx0_4 : ∀ i : grid0.Coords, EltTy.bits .f32 = 32 ∨ (Rect.block (s := S16384x896) S1024x896.size (cc0_transform_4 i) (hinb0_4 i)).WholeWords (EltTy.packing .f32)

variable [Facts₀]

abbrev win0_0 : Pipeline.Window sig grid0 :=
  Pipeline.Window.ofSpec (Memref.whole main_arg0) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x768.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1024x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0_0) S1024x640.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0_1) S1024x896.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S16384x512 : Shape := ⟨2, ![16384, 512]⟩
abbrev S16384x768 : Shape := ⟨2, ![16384, 768]⟩
abbrev S16384x256 : Shape := ⟨2, ![16384, 256]⟩
abbrev S16384x128 : Shape := ⟨2, ![16384, 128]⟩
abbrev S16384x640 : Shape := ⟨2, ![16384, 640]⟩
abbrev S16384x896 : Shape := ⟨2, ![16384, 896]⟩

abbrev nBuf : Space → Nat
  | .hbm => 10
  | .vmem => 0
  | .smem => 0
  | _ => 0

abbrev bufTy : (tb : Table) → Fin (tcTables nBuf tb) → BufTy
  | .hbm, ⟨0, _⟩ => ⟨S16384x512, .f32⟩
  | .hbm, ⟨1, _⟩ => ⟨S16384x768, .f32⟩
  | .hbm, ⟨2, _⟩ => ⟨S16384x256, .f32⟩
  | .hbm, ⟨3, _⟩ => ⟨S16384x128, .f32⟩
  | .hbm, ⟨4, _⟩ => ⟨S16384x256, .f32⟩
  | .hbm, ⟨5, _⟩ => ⟨S16384x640, .f32⟩
  | .hbm, ⟨6, _⟩ => ⟨S16384x256, .f32⟩
  | .hbm, ⟨7, _⟩ => ⟨S16384x512, .f32⟩
  | .hbm, ⟨8, _⟩ => ⟨S16384x128, .f32⟩
  | .hbm, ⟨9, _⟩ => ⟨S16384x896, .f32⟩
  | _, _ => ⟨S16384x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]

class Facts₀ : Prop where
  slices_S16384x512_S16384x128_0_0 : S16384x512.Slices ![0, 0] S16384x128
  slices_S16384x768_S16384x256_0_0 : S16384x768.Slices ![0, 0] S16384x256
  concatenates_S16384x128_S16384x256_S16384x256_S16384x640_d1 : Shape.Concatenates [S16384x128, S16384x256, S16384x256] S16384x640 1
  slices_S16384x512_S16384x256_0_128 : S16384x512.Slices ![0, 128] S16384x256
  slices_S16384x768_S16384x512_0_256 : S16384x768.Slices ![0, 256] S16384x512
  slices_S16384x512_S16384x128_0_384 : S16384x512.Slices ![0, 384] S16384x128
  concatenates_S16384x256_S16384x512_S16384x128_S16384x896_d1 : Shape.Concatenates [S16384x256, S16384x512, S16384x128] S16384x896 1

variable [Facts₀]

class Facts : Prop extends Facts₀ where

variable [Facts]
-- ==== Proof.ColumnJoin.lean ====
/-
  The two results as functions of the three argument matrices, index by index.

  Each result row is a row-wise join of column bands of the arguments' rows (no arithmetic):

    first result  (640 columns): columns   0 ..128 are  a[:,   0..128],
                                 columns 128 ..384 are  b[:,   0..256],
                                 columns 384 ..640 are  d[:,   0..256];
    second result (896 columns): columns   0 ..256 are  a[:, 128..384],
                                 columns 256 ..768 are  b[:, 256..768],
                                 columns 768 ..896 are  a[:, 384..512].

  Both are stated for any number of rows `R` and any element type, so that the same function describes a
  1024-row block of a result and the whole 16384-row result. For each band there is a lemma that reads the
  join at an index of the band as the source matrix at an index the caller names, the two coordinate
  equations being arithmetic side goals.
-/
import Idealize.ShloMosaic.Lib.ValueIdx

noncomputable section

namespace Cert.ColumnJoin

open Idealize.ShloMosaic Idealize.ShloMosaic.ValueIdx

variable {α : Type} {R : Nat}

/-- The first result: `a`'s columns 0..128, then `b`'s columns 0..256, then all 256 columns of `d`. -/
def joinA (a : (⟨2, ![R, 512]⟩ : Shape).Idx → α) (b : (⟨2, ![R, 768]⟩ : Shape).Idx → α)
    (d : (⟨2, ![R, 256]⟩ : Shape).Idx → α) : (⟨2, ![R, 640]⟩ : Shape).Idx → α := fun i =>
  if h1 : (i 1).val < 128 then
    a (ix2 (n0 := R) (n1 := 512) ⟨(i 0).val, idx2_lt0 i⟩ ⟨(i 1).val, by omega⟩)
  else if h2 : (i 1).val < 384 then
    b (ix2 (n0 := R) (n1 := 768) ⟨(i 0).val, idx2_lt0 i⟩ ⟨(i 1).val - 128, by omega⟩)
  else
    d (ix2 (n0 := R) (n1 := 256) ⟨(i 0).val, idx2_lt0 i⟩ ⟨(i 1).val - 384, by have := idx2_lt1 i; omega⟩)

/-- The second result: `a`'s columns 128..384, then `b`'s columns 256..768, then `a`'s columns 384..512. -/
def joinB (a : (⟨2, ![R, 512]⟩ : Shape).Idx → α) (b : (⟨2, ![R, 768]⟩ : Shape).Idx → α) :
    (⟨2, ![R, 896]⟩ : Shape).Idx → α := fun i =>
  if h1 : (i 1).val < 256 then
    a (ix2 (n0 := R) (n1 := 512) ⟨(i 0).val, idx2_lt0 i⟩ ⟨(i 1).val + 128, by omega⟩)
  else if h2 : (i 1).val < 768 then
    b (ix2 (n0 := R) (n1 := 768) ⟨(i 0).val, idx2_lt0 i⟩ ⟨(i 1).val, by omega⟩)
  else
    a (ix2 (n0 := R) (n1 := 512) ⟨(i 0).val, idx2_lt0 i⟩ ⟨(i 1).val - 384, by have := idx2_lt1 i; omega⟩)

/-- Two rank-2 indices with equal coordinates (as naturals) are equal. -/
theorem idx2_ext {n0 n1 : Nat} {k k' : (⟨2, ![n0, n1]⟩ : Shape).Idx} (h0 : (k 0).val = (k' 0).val)
    (h1 : (k 1).val = (k' 1).val) : k = k' :=
  funext fun a => Fin.ext <| match a with | ⟨0, _⟩ => h0 | ⟨1, _⟩ => h1

/-! ## The first result, band by band -/

/-- In columns 0..128 the first result is `a` at the same row and column. -/
theorem joinA_lo (a : (⟨2, ![R, 512]⟩ : Shape).Idx → α) (b : (⟨2, ![R, 768]⟩ : Shape).Idx → α)
    (d : (⟨2, ![R, 256]⟩ : Shape).Idx → α) (i : (⟨2, ![R, 640]⟩ : Shape).Idx) (h : (i 1).val < 128)
    (k : (⟨2, ![R, 512]⟩ : Shape).Idx) (h0 : (k 0).val = (i 0).val) (h1 : (k 1).val = (i 1).val) :
    joinA a b d i = a k := by
  unfold joinA
  rw [dif_pos h]
  exact congrArg a (idx2_ext h0.symm h1.symm)

/-- In columns 128..384 the first result is `b` at the same row, 128 columns to the left. -/
theorem joinA_mid (a : (⟨2, ![R, 512]⟩ : Shape).Idx → α) (b : (⟨2, ![R, 768]⟩ : Shape).Idx → α)
    (d : (⟨2, ![R, 256]⟩ : Shape).Idx → α) (i : (⟨2, ![R, 640]⟩ : Shape).Idx) (hlo : 128 ≤ (i 1).val)
    (hhi : (i 1).val < 384) (k : (⟨2, ![R, 768]⟩ : Shape).Idx) (h0 : (k 0).val = (i 0).val)
    (h1 : (k 1).val + 128 = (i 1).val) : joinA a b d i = b k := by
  unfold joinA
  rw [dif_neg (by omega), dif_pos hhi]
  exact congrArg b (idx2_ext h0.symm (by show (i 1).val - 128 = (k 1).val; omega))

/-- In columns 384..640 the first result is `d` at the same row, 384 columns to the left. -/
theorem joinA_hi (a : (⟨2, ![R, 512]⟩ : Shape).Idx → α) (b : (⟨2, ![R, 768]⟩ : Shape).Idx → α)
    (d : (⟨2, ![R, 256]⟩ : Shape).Idx → α) (i : (⟨2, ![R, 640]⟩ : Shape).Idx) (hlo : 384 ≤ (i 1).val)
    (k : (⟨2, ![R, 256]⟩ : Shape).Idx) (h0 : (k 0).val = (i 0).val) (h1 : (k 1).val + 384 = (i 1).val) :
    joinA a b d i = d k := by
  unfold joinA
  rw [dif_neg (by omega), dif_neg (by omega)]
  exact congrArg d (idx2_ext h0.symm (by show (i 1).val - 384 = (k 1).val; omega))

/-! ## The second result, band by band -/

/-- In columns 0..256 the second result is `a` at the same row, 128 columns to the right. -/
theorem joinB_lo (a : (⟨2, ![R, 512]⟩ : Shape).Idx → α) (b : (⟨2, ![R, 768]⟩ : Shape).Idx → α)
    (i : (⟨2, ![R, 896]⟩ : Shape).Idx) (h : (i 1).val < 256) (k : (⟨2, ![R, 512]⟩ : Shape).Idx)
    (h0 : (k 0).val = (i 0).val) (h1 : (k 1).val = (i 1).val + 128) : joinB a b i = a k := by
  unfold joinB
  rw [dif_pos h]
  exact congrArg a (idx2_ext h0.symm h1.symm)

/-- In columns 256..768 the second result is `b` at the same row and column. -/
theorem joinB_mid (a : (⟨2, ![R, 512]⟩ : Shape).Idx → α) (b : (⟨2, ![R, 768]⟩ : Shape).Idx → α)
    (i : (⟨2, ![R, 896]⟩ : Shape).Idx) (hlo : 256 ≤ (i 1).val) (hhi : (i 1).val < 768)
    (k : (⟨2, ![R, 768]⟩ : Shape).Idx) (h0 : (k 0).val = (i 0).val) (h1 : (k 1).val = (i 1).val) :
    joinB a b i = b k := by
  unfold joinB
  rw [dif_neg (by omega), dif_pos hhi]
  exact congrArg b (idx2_ext h0.symm h1.symm)

/-- In columns 768..896 the second result is `a` at the same row, 384 columns to the left. -/
theorem joinB_hi (a : (⟨2, ![R, 512]⟩ : Shape).Idx → α) (b : (⟨2, ![R, 768]⟩ : Shape).Idx → α)
    (i : (⟨2, ![R, 896]⟩ : Shape).Idx) (hlo : 768 ≤ (i 1).val) (k : (⟨2, ![R, 512]⟩ : Shape).Idx)
    (h0 : (k 0).val = (i 0).val) (h1 : (k 1).val + 384 = (i 1).val) : joinB a b i = a k := by
  unfold joinB
  rw [dif_neg (by omega), dif_neg (by omega)]
  exact congrArg a (idx2_ext h0.symm (by show (i 1).val - 384 = (k 1).val; omega))

end Cert.ColumnJoin

end
-- ==== Proof.BlockJoin.lean ====
/-
  What one run of the kernel body leaves in the two result blocks, as functions of the three input blocks.

  The body loads its three input blocks whole (1024 rows each) and fills each result block by three stores
  of column bands, each store's value a unit-stride column slice of one loaded block (or the third block
  whole). Read back, the three bands of the first result block are the join `ColumnJoin.joinA` of the input
  blocks, and those of the second are `ColumnJoin.joinB`: every stored band agrees, at each of its indices,
  with the join at that index of the block, and the bands cover the block.

  (The body also loads each band of a result block before it stores it; those loaded values are never used.)
-/
import proofs.«154028_j68582037782900_1_alg».proof.Proof.Gen.KernelIdeal.Frame
import proofs.«154028_j68582037782900_1_alg».proof.Proof.ColumnJoin
import Idealize.ShloMosaic.Lib.Pipeline.Value

set_option maxRecDepth 16384

noncomputable section

namespace Cert.KernelIdeal.BlockValue

open Cert.KernelIdeal Cert.KernelIdeal.Gen Idealize.ShloMosaic Idealize.ShloMosaic.TcCoe Idealize.SL.Sem Idealize.ShloMosaic.Tactic
open Idealize.ShloMosaic.ValueIdx
open Cert.ColumnJoin

variable {F : FTy → Type} [FloatOps F]

/-- The zero offsets of a whole-block load, spelt as the constant function. -/
theorem zero_offsets : (![0, 0] : Fin 2 → Nat) = fun _ => 0 := funext fun a => by fin_cases a <;> rfl

/-- The first result block after the body: columns 0..128 hold the first input block's columns 0..128,
    columns 128..384 the second input block's columns 0..256, columns 384..640 the third input block. -/
theorem first_block (c : Dev nD) (i : grid0.Coords) (arg1 : Memref sig .tc .vmem S1024x512 .f32) (harg1 : arg1.IsWhole) (arg2 : Memref sig .tc .vmem S1024x768 .f32) (harg2 : arg2.IsWhole) (arg3 : Memref sig .tc .vmem S1024x256 .f32) (harg3 : arg3.IsWhole) (arg4 : Memref sig .tc .vmem S1024x640 .f32) (harg4 : arg4.IsWhole) (arg5 : Memref sig .tc .vmem S1024x896 .f32) (harg5 : arg5.IsWhole)
    (x0 : Vec F S1024x512 .f32) (x1 : Vec F S1024x768 .f32) (x2 : Vec F S1024x256 .f32) :
    out0_A_3 c i arg1 harg1 arg2 harg2 arg3 harg3 arg4 harg4 arg5 harg5 x0 x1 x2 = joinA (R := 1024) x0 x1 x2 := by
  unfold out0_A_3
  rw [View.read_writes_junk_eq_canon]
  funext y
  refine View.canon_apply_of_pieces (joinA (R := 1024) x0 x1 x2) _ ?_ y (cover0_A_3 c i arg1 harg1 arg2 harg2 arg3 harg3 arg4 harg4 arg5 harg5 x0 x1 x2 y)
  unfold kernelRun0_A
  dsimp only
  sl_unfold_words
  simp only [View.readAt_eq_ld, harg1.read_unread, harg2.read_unread, harg3.read_unread,
    View.ld_unit_zero (S := S1024x512) zero_offsets, View.ld_unit_zero (S := S1024x768) zero_offsets, View.ld_unit_zero (S := S1024x256) zero_offsets]
  intro p hp
  simp only [List.mem_cons, List.mem_nil_iff, or_false] at hp
  rcases hp with rfl | rfl | rfl
  · intro x
    exact (joinA_hi x0 x1 x2 _ (by show 384 ≤ 384 + 1 * (x 1).val; omega) x
      (by show (x 0).val = 0 + 1 * (x 0).val; omega) (by show (x 1).val + 384 = 384 + 1 * (x 1).val; omega)).symm
  · intro x
    have hx0 : (x 0).val < 1024 := (x 0).isLt
    have hx1 : (x 1).val < 256 := (x 1).isLt
    let k : S1024x768.Idx := ix2 (n0 := 1024) (n1 := 768) ⟨(x 0).val, hx0⟩ ⟨(x 1).val, by omega⟩
    refine Eq.trans (b := x1 k) ?_ (joinA_mid x0 x1 x2 _ ?_ ?_ k ?_ ?_).symm
    · unfold k0_pay2
      exact extractStridedSlice_apply ![0, 0] x1 slices_S1024x768_o0_0_S1024x256 x k (fun a => match a with
        | ⟨0, _⟩ => by show (x 0).val = 0 + (x 0).val; omega
        | ⟨1, _⟩ => by show (x 1).val = 0 + (x 1).val; omega)
    · show 128 ≤ 128 + 1 * (x 1).val; omega
    · show 128 + 1 * (x 1).val < 384; omega
    · show (x 0).val = 0 + 1 * (x 0).val; omega
    · show (x 1).val + 128 = 128 + 1 * (x 1).val; omega
  · intro x
    have hx0 : (x 0).val < 1024 := (x 0).isLt
    have hx1 : (x 1).val < 128 := (x 1).isLt
    let k : S1024x512.Idx := ix2 (n0 := 1024) (n1 := 512) ⟨(x 0).val, hx0⟩ ⟨(x 1).val, by omega⟩
    refine Eq.trans (b := x0 k) ?_ (joinA_lo x0 x1 x2 _ ?_ k ?_ ?_).symm
    · unfold k0_pay1
      exact extractStridedSlice_apply ![0, 0] x0 slices_S1024x512_o0_0_S1024x128 x k (fun a => match a with
        | ⟨0, _⟩ => by show (x 0).val = 0 + (x 0).val; omega
        | ⟨1, _⟩ => by show (x 1).val = 0 + (x 1).val; omega)
    · show 0 + 1 * (x 1).val < 128; omega
    · show (x 0).val = 0 + 1 * (x 0).val; omega
    · show (x 1).val = 0 + 1 * (x 1).val; omega

/-- The second result block after the body: columns 0..256 hold the first input block's columns 128..384,
    columns 256..768 the second input block's columns 256..768, columns 768..896 the first input block's
    columns 384..512. -/
theorem second_block (c : Dev nD) (i : grid0.Coords) (arg1 : Memref sig .tc .vmem S1024x512 .f32) (harg1 : arg1.IsWhole) (arg2 : Memref sig .tc .vmem S1024x768 .f32) (harg2 : arg2.IsWhole) (arg3 : Memref sig .tc .vmem S1024x256 .f32) (harg3 : arg3.IsWhole) (arg4 : Memref sig .tc .vmem S1024x640 .f32) (harg4 : arg4.IsWhole) (arg5 : Memref sig .tc .vmem S1024x896 .f32) (harg5 : arg5.IsWhole)
    (x0 : Vec F S1024x512 .f32) (x1 : Vec F S1024x768 .f32) (x2 : Vec F S1024x256 .f32) :
    out0_A_4 c i arg1 harg1 arg2 harg2 arg3 harg3 arg4 harg4 arg5 harg5 x0 x1 x2 = joinB (R := 1024) x0 x1 := by
  unfold out0_A_4
  rw [View.read_writes_junk_eq_canon]
  funext y
  refine View.canon_apply_of_pieces (joinB (R := 1024) x0 x1) _ ?_ y (cover0_A_4 c i arg1 harg1 arg2 harg2 arg3 harg3 arg4 harg4 arg5 harg5 x0 x1 x2 y)
  unfold kernelRun0_A
  dsimp only
  sl_unfold_words
  simp only [View.readAt_eq_ld, harg1.read_unread, harg2.read_unread, harg3.read_unread,
    View.ld_unit_zero (S := S1024x512) zero_offsets, View.ld_unit_zero (S := S1024x768) zero_offsets, View.ld_unit_zero (S := S1024x256) zero_offsets]
  intro p hp
  simp only [List.mem_cons, List.mem_nil_iff, or_false] at hp
  rcases hp with rfl | rfl | rfl
  · intro x
    have hx0 : (x 0).val < 1024 := (x 0).isLt
    have hx1 : (x 1).val < 128 := (x 1).isLt
    let k : S1024x512.Idx := ix2 (n0 := 1024) (n1 := 512) ⟨(x 0).val, hx0⟩ ⟨384 + (x 1).val, by omega⟩
    refine Eq.trans (b := x0 k) ?_ (joinB_hi x0 x1 _ ?_ k ?_ ?_).symm
    · unfold k0_pay5
      exact extractStridedSlice_apply ![0, 384] x0 slices_S1024x512_o0_384_S1024x128 x k (fun a => match a with
        | ⟨0, _⟩ => by show (x 0).val = 0 + (x 0).val; omega
        | ⟨1, _⟩ => by show 384 + (x 1).val = 384 + (x 1).val; omega)
    · show 768 ≤ 768 + 1 * (x 1).val; omega
    · show (x 0).val = 0 + 1 * (x 0).val; omega
    · show 384 + (x 1).val + 384 = 768 + 1 * (x 1).val; omega
  · intro x
    have hx0 : (x 0).val < 1024 := (x 0).isLt
    have hx1 : (x 1).val < 512 := (x 1).isLt
    let k : S1024x768.Idx := ix2 (n0 := 1024) (n1 := 768) ⟨(x 0).val, hx0⟩ ⟨256 + (x 1).val, by omega⟩
    refine Eq.trans (b := x1 k) ?_ (joinB_mid x0 x1 _ ?_ ?_ k ?_ ?_).symm
    · unfold k0_pay4
      exact extractStridedSlice_apply ![0, 256] x1 slices_S1024x768_o0_256_S1024x512 x k (fun a => match a with
        | ⟨0, _⟩ => by show (x 0).val = 0 + (x 0).val; omega
        | ⟨1, _⟩ => by show 256 + (x 1).val = 256 + (x 1).val; omega)
    · show 256 ≤ 256 + 1 * (x 1).val; omega
    · show 256 + 1 * (x 1).val < 768; omega
    · show (x 0).val = 0 + 1 * (x 0).val; omega
    · show 256 + (x 1).val = 256 + 1 * (x 1).val; omega
  · intro x
    have hx0 : (x 0).val < 1024 := (x 0).isLt
    have hx1 : (x 1).val < 256 := (x 1).isLt
    let k : S1024x512.Idx := ix2 (n0 := 1024) (n1 := 512) ⟨(x 0).val, hx0⟩ ⟨128 + (x 1).val, by omega⟩
    refine Eq.trans (b := x0 k) ?_ (joinB_lo x0 x1 _ ?_ k ?_ ?_).symm
    · unfold k0_pay3
      exact extractStridedSlice_apply ![0, 128] x0 slices_S1024x512_o0_128_S1024x256 x k (fun a => match a with
        | ⟨0, _⟩ => by show (x 0).val = 0 + (x 0).val; omega
        | ⟨1, _⟩ => by show 128 + (x 1).val = 128 + (x 1).val; omega)
    · show 0 + 1 * (x 1).val < 256; omega
    · show (x 0).val = 0 + 1 * (x 0).val; omega
    · show 128 + (x 1).val = 0 + 1 * (x 1).val + 128; omega

end Cert.KernelIdeal.BlockValue

end
-- ==== Proof.ArrayJoin.lean ====
/-
  From blocks to arrays: after the kernel's run each result array is the column join of the argument arrays.

  The grid has 16 points; at point `t` every window's block is rows `1024 t .. 1024 (t + 1)` of its array,
  all columns. What point `t` writes back to a result array is the column join of the three input blocks
  (`BlockValue`), and an input block is its argument array read at those rows: a column join only moves
  columns, so the join of the blocks is the block of the join of the arrays. The 16 row blocks cover each
  result array (row `r` lies in the block of point `r / 1024`), hence after the run the first result array
  is `ColumnJoin.joinA` of the arguments and the second is `ColumnJoin.joinB`.
-/
import proofs.«154028_j68582037782900_1_alg».proof.Proof.Gen.KernelIdeal.Value
import proofs.«154028_j68582037782900_1_alg».proof.Proof.BlockJoin

set_option maxRecDepth 16384

noncomputable section

namespace Cert.KernelIdeal.ArrayValue

open Cert.KernelIdeal Cert.KernelIdeal.Gen Cert.KernelIdeal.Value Idealize.ShloMosaic Idealize.ShloMosaic.TcCoe Idealize.SL.Sem
open Idealize.ShloMosaic.Pipeline (Dat)
open Idealize.ShloMosaic.ValueIdx
open Cert.ColumnJoin Cert.KernelIdeal.BlockValue

variable {F : FTy → Type} [FloatOps F]
variable (m : (ℓ : Loc nD τ sig) → Buf (Elt F) ℓ) (ρ : Dev nD → PrngReg)

/-- The printed index maps, decided over the 16 grid points: every window's block index is `(t, 0)`. -/
theorem block_index : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0 :=
  (by decide +kernel : ∀ t : Fin grid0.N, _)

/-! ## The first result -/

/-- What point `t` writes back to the first result array is block `t` of the column join of the argument arrays. -/
theorem first_flushed (c : Dev nD) (t : Fin cfg0.N) :
    (dats m 0 c).flushed 3 t = ((cfg0.win 3).blk t).view.read (Elt F)
      (joinA (R := 16384) (V m c main_arg0) (V m c main_arg1) (V m c main_arg2)) := by
  rw [flushed3_A, first_block c (grid0.coords t) (ms0_0 t) (hs0_0 t) (ms0_1 t) (hs0_1 t) (ms0_2 t) (hs0_2 t) (ms0_3 t) (hs0_3 t)
    (ms0_4 t) (hs0_4 t) (iblk m c 0 t) (iblk m c 1 t) (iblk m c 2 t)]
  obtain ⟨a0, a1, b0, b1, d0, d1, e0, e1, -, -⟩ := block_index t
  funext j
  have hj0 : (j 0).val < 1024 := (j 0).isLt
  have hj1 : (j 1).val < 640 := (j 1).isLt
  show joinA (R := 1024) (α := Elt F .f32) (iblk m c 0 t) (iblk m c 1 t) (iblk m c 2 t) j
    = joinA (R := 16384) (α := Elt F .f32) (V m c main_arg0) (V m c main_arg1) (V m c main_arg2) (((cfg0.win 3).blk t).view.emb j)
  by_cases h1 : (j 1).val < 128
  · let k : S1024x512.Idx := ix2 (n0 := 1024) (n1 := 512) ⟨(j 0).val, hj0⟩ ⟨(j 1).val, by omega⟩
    refine (joinA_lo (R := 1024) (α := Elt F .f32) (iblk m c 0 t) (iblk m c 1 t) (iblk m c 2 t) j h1 k rfl rfl).trans ?_
    refine Eq.symm (joinA_lo (R := 16384) (α := Elt F .f32) (V m c main_arg0) (V m c main_arg1) (V m c main_arg2) _ ?_
      (((cfg0.win 0).blk t).view.emb k) ?_ ?_)
    · show win0_3.index t (1 : Fin 2) * 640 + 1 * (j 1).val < 128; omega
    · show win0_0.index t (0 : Fin 2) * 1024 + 1 * (j 0).val = win0_3.index t (0 : Fin 2) * 1024 + 1 * (j 0).val; omega
    · show win0_0.index t (1 : Fin 2) * 512 + 1 * (j 1).val = win0_3.index t (1 : Fin 2) * 640 + 1 * (j 1).val; omega
  · by_cases h2 : (j 1).val < 384
    · let k : S1024x768.Idx := ix2 (n0 := 1024) (n1 := 768) ⟨(j 0).val, hj0⟩ ⟨(j 1).val - 128, by omega⟩
      refine (joinA_mid (R := 1024) (α := Elt F .f32) (iblk m c 0 t) (iblk m c 1 t) (iblk m c 2 t) j (by omega) h2 k rfl
        (by show (j 1).val - 128 + 128 = (j 1).val; omega)).trans ?_
      refine Eq.symm (joinA_mid (R := 16384) (α := Elt F .f32) (V m c main_arg0) (V m c main_arg1) (V m c main_arg2) _ ?_ ?_
        (((cfg0.win 1).blk t).view.emb k) ?_ ?_)
      · show 128 ≤ win0_3.index t (1 : Fin 2) * 640 + 1 * (j 1).val; omega
      · show win0_3.index t (1 : Fin 2) * 640 + 1 * (j 1).val < 384; omega
      · show win0_1.index t (0 : Fin 2) * 1024 + 1 * (j 0).val = win0_3.index t (0 : Fin 2) * 1024 + 1 * (j 0).val; omega
      · show win0_1.index t (1 : Fin 2) * 768 + 1 * ((j 1).val - 128) + 128 = win0_3.index t (1 : Fin 2) * 640 + 1 * (j 1).val; omega
    · let k : S1024x256.Idx := ix2 (n0 := 1024) (n1 := 256) ⟨(j 0).val, hj0⟩ ⟨(j 1).val - 384, by omega⟩
      refine (joinA_hi (R := 1024) (α := Elt F .f32) (iblk m c 0 t) (iblk m c 1 t) (iblk m c 2 t) j (by omega) k rfl
        (by show (j 1).val - 384 + 384 = (j 1).val; omega)).trans ?_
      refine Eq.symm (joinA_hi (R := 16384) (α := Elt F .f32) (V m c main_arg0) (V m c main_arg1) (V m c main_arg2) _ ?_
        (((cfg0.win 2).blk t).view.emb k) ?_ ?_)
      · show 384 ≤ win0_3.index t (1 : Fin 2) * 640 + 1 * (j 1).val; omega
      · show win0_2.index t (0 : Fin 2) * 1024 + 1 * (j 0).val = win0_3.index t (0 : Fin 2) * 1024 + 1 * (j 0).val; omega
      · show win0_2.index t (1 : Fin 2) * 256 + 1 * ((j 1).val - 384) + 384 = win0_3.index t (1 : Fin 2) * 640 + 1 * (j 1).val; omega

/-- An index of the first result array is in point `t`'s block iff each coordinate is in the block's range. -/
theorem mem_first_block (t : Fin cfg0.N) (i : S16384x640.Idx) :
    i ∈ ((cfg0.win 3).blk t).view.set ↔ ∀ a : Fin 2, win0_3.index t a * S1024x640.size a ≤ (i a).val
      ∧ (i a).val < win0_3.index t a * S1024x640.size a + S1024x640.size a := by
  show i ∈ ((View.whole main_v0_0).slice (win0_3.rect t)).set ↔ _
  rw [View.set_slice_whole, Rect.mem_set_unit]
  exact Iff.rfl

/-- Every index of the first result array lies in the block of the point its row selects. -/
theorem first_cover (i : S16384x640.Idx) :
    ∃ t : Fin cfg0.N, (cfg0.win 3).flush t = true ∧ i ∈ ((cfg0.win 3).blk t).view.set := by
  have hi0 : (i 0).val < 16384 := (i 0).isLt
  have hi1 : (i 1).val < 640 := (i 1).isLt
  let t : Fin cfg0.N := ⟨(i 0).val / 1024, by show (i 0).val / 1024 < 16; omega⟩
  obtain ⟨-, -, -, -, -, -, e0, e1, -, -⟩ := block_index t
  have ht : t.val = (i 0).val / 1024 := rfl
  refine ⟨t, flush0_3 t, ?_⟩
  rw [mem_first_block]
  intro a
  match a with
  | ⟨0, _⟩ => show win0_3.index t (0 : Fin 2) * 1024 ≤ (i 0).val ∧ (i 0).val < win0_3.index t (0 : Fin 2) * 1024 + 1024; omega
  | ⟨1, _⟩ => show win0_3.index t (1 : Fin 2) * 640 ≤ (i 1).val ∧ (i 1).val < win0_3.index t (1 : Fin 2) * 640 + 640; omega

/-- After the run the first result array is the first column join of the argument arrays. -/
theorem first_final (c : Dev nD) :
    (dats m 0 c).arrAt 3 cfg0.N = joinA (R := 16384) (V m c main_arg0) (V m c main_arg1) (V m c main_arg2) :=
  (dats m 0 c).arrAt_eq_of_cover 3 _ (fun t _ => first_flushed m c t) first_cover

/-! ## The second result -/

/-- What point `t` writes back to the second result array is block `t` of the column join of the argument arrays. -/
theorem second_flushed (c : Dev nD) (t : Fin cfg0.N) :
    (dats m 0 c).flushed 4 t = ((cfg0.win 4).blk t).view.read (Elt F)
      (joinB (R := 16384) (V m c main_arg0) (V m c main_arg1)) := by
  rw [flushed4_A, second_block c (grid0.coords t) (ms0_0 t) (hs0_0 t) (ms0_1 t) (hs0_1 t) (ms0_2 t) (hs0_2 t) (ms0_3 t) (hs0_3 t)
    (ms0_4 t) (hs0_4 t) (iblk m c 0 t) (iblk m c 1 t) (iblk m c 2 t)]
  obtain ⟨a0, a1, b0, b1, -, -, -, -, e0, e1⟩ := block_index t
  funext j
  have hj0 : (j 0).val < 1024 := (j 0).isLt
  have hj1 : (j 1).val < 896 := (j 1).isLt
  show joinB (R := 1024) (α := Elt F .f32) (iblk m c 0 t) (iblk m c 1 t) j
    = joinB (R := 16384) (α := Elt F .f32) (V m c main_arg0) (V m c main_arg1) (((cfg0.win 4).blk t).view.emb j)
  by_cases h1 : (j 1).val < 256
  · let k : S1024x512.Idx := ix2 (n0 := 1024) (n1 := 512) ⟨(j 0).val, hj0⟩ ⟨(j 1).val + 128, by omega⟩
    refine (joinB_lo (R := 1024) (α := Elt F .f32) (iblk m c 0 t) (iblk m c 1 t) j h1 k rfl rfl).trans ?_
    refine Eq.symm (joinB_lo (R := 16384) (α := Elt F .f32) (V m c main_arg0) (V m c main_arg1) _ ?_
      (((cfg0.win 0).blk t).view.emb k) ?_ ?_)
    · show win0_4.index t (1 : Fin 2) * 896 + 1 * (j 1).val < 256; omega
    · show win0_0.index t (0 : Fin 2) * 1024 + 1 * (j 0).val = win0_4.index t (0 : Fin 2) * 1024 + 1 * (j 0).val; omega
    · show win0_0.index t (1 : Fin 2) * 512 + 1 * ((j 1).val + 128) = win0_4.index t (1 : Fin 2) * 896 + 1 * (j 1).val + 128; omega
  · by_cases h2 : (j 1).val < 768
    · let k : S1024x768.Idx := ix2 (n0 := 1024) (n1 := 768) ⟨(j 0).val, hj0⟩ ⟨(j 1).val, by omega⟩
      refine (joinB_mid (R := 1024) (α := Elt F .f32) (iblk m c 0 t) (iblk m c 1 t) j (by omega) h2 k rfl rfl).trans ?_
      refine Eq.symm (joinB_mid (R := 16384) (α := Elt F .f32) (V m c main_arg0) (V m c main_arg1) _ ?_ ?_
        (((cfg0.win 1).blk t).view.emb k) ?_ ?_)
      · show 256 ≤ win0_4.index t (1 : Fin 2) * 896 + 1 * (j 1).val; omega
      · show win0_4.index t (1 : Fin 2) * 896 + 1 * (j 1).val < 768; omega
      · show win0_1.index t (0 : Fin 2) * 1024 + 1 * (j 0).val = win0_4.index t (0 : Fin 2) * 1024 + 1 * (j 0).val; omega
      · show win0_1.index t (1 : Fin 2) * 768 + 1 * (j 1).val = win0_4.index t (1 : Fin 2) * 896 + 1 * (j 1).val; omega
    · let k : S1024x512.Idx := ix2 (n0 := 1024) (n1 := 512) ⟨(j 0).val, hj0⟩ ⟨(j 1).val - 384, by omega⟩
      refine (joinB_hi (R := 1024) (α := Elt F .f32) (iblk m c 0 t) (iblk m c 1 t) j (by omega) k rfl
        (by show (j 1).val - 384 + 384 = (j 1).val; omega)).trans ?_
      refine Eq.symm (joinB_hi (R := 16384) (α := Elt F .f32) (V m c main_arg0) (V m c main_arg1) _ ?_
        (((cfg0.win 0).blk t).view.emb k) ?_ ?_)
      · show 768 ≤ win0_4.index t (1 : Fin 2) * 896 + 1 * (j 1).val; omega
      · show win0_0.index t (0 : Fin 2) * 1024 + 1 * (j 0).val = win0_4.index t (0 : Fin 2) * 1024 + 1 * (j 0).val; omega
      · show win0_0.index t (1 : Fin 2) * 512 + 1 * ((j 1).val - 384) + 384 = win0_4.index t (1 : Fin 2) * 896 + 1 * (j 1).val; omega

/-- An index of the second result array is in point `t`'s block iff each coordinate is in the block's range. -/
theorem mem_second_block (t : Fin cfg0.N) (i : S16384x896.Idx) :
    i ∈ ((cfg0.win 4).blk t).view.set ↔ ∀ a : Fin 2, win0_4.index t a * S1024x896.size a ≤ (i a).val
      ∧ (i a).val < win0_4.index t a * S1024x896.size a + S1024x896.size a := by
  show i ∈ ((View.whole main_v0_1).slice (win0_4.rect t)).set ↔ _
  rw [View.set_slice_whole, Rect.mem_set_unit]
  exact Iff.rfl

/-- Every index of the second result array lies in the block of the point its row selects. -/
theorem second_cover (i : S16384x896.Idx) :
    ∃ t : Fin cfg0.N, (cfg0.win 4).flush t = true ∧ i ∈ ((cfg0.win 4).blk t).view.set := by
  have hi0 : (i 0).val < 16384 := (i 0).isLt
  have hi1 : (i 1).val < 896 := (i 1).isLt
  let t : Fin cfg0.N := ⟨(i 0).val / 1024, by show (i 0).val / 1024 < 16; omega⟩
  obtain ⟨-, -, -, -, -, -, -, -, e0, e1⟩ := block_index t
  have ht : t.val = (i 0).val / 1024 := rfl
  refine ⟨t, flush0_4 t, ?_⟩
  rw [mem_second_block]
  intro a
  match a with
  | ⟨0, _⟩ => show win0_4.index t (0 : Fin 2) * 1024 ≤ (i 0).val ∧ (i 0).val < win0_4.index t (0 : Fin 2) * 1024 + 1024; omega
  | ⟨1, _⟩ => show win0_4.index t (1 : Fin 2) * 896 ≤ (i 1).val ∧ (i 1).val < win0_4.index t (1 : Fin 2) * 896 + 896; omega

/-- After the run the second result array is the second column join of the argument arrays. -/
theorem second_final (c : Dev nD) :
    (dats m 0 c).arrAt 4 cfg0.N = joinB (R := 16384) (V m c main_arg0) (V m c main_arg1) :=
  (dats m 0 c).arrAt_eq_of_cover 4 _ (fun t _ => second_flushed m c t) second_cover

/-! ## The run, read -/

/-- Every weakly fair execution of the kernel's program terminates with the two result arrays at the column
    joins of the argument arrays as launched, and the arguments unchanged. -/
theorem run : θ_run defs (onTc (τ := τ) (main (F := F))) ⟨m, fun _ => 0, ρ⟩ fun r => ∀ c : Dev nD,
      r.2.mem ((c : Thread nD τ).loc main_v0_0)
        = joinA (R := 16384) (m ((c : Thread nD τ).loc main_arg0)) (m ((c : Thread nD τ).loc main_arg1)) (m ((c : Thread nD τ).loc main_arg2))
      ∧ r.2.mem ((c : Thread nD τ).loc main_v0_1)
        = joinB (R := 16384) (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (first_final m c), (h c).2.1.trans (second_final m c), (h c).2.2⟩)
    (run_blocks m ρ)

end Cert.KernelIdeal.ArrayValue

end
-- ==== Proof.ReferenceJoin.lean ====
/-
  The reference's two results are the column joins of its arguments.

  The reference slices column bands out of the arguments and concatenates them along the column axis. Read
  at an index, a concatenation is the piece whose span holds the column, at the column less the widths of
  the pieces before it, and a slice is its operand at the column plus the slice's offset: so the first
  result is `ColumnJoin.joinA` of the arguments and the second `ColumnJoin.joinB`, band by band.
-/
import proofs.«154028_j68582037782900_1_alg».proof.Proof.Gen.ReferenceIdeal.Read
import proofs.«154028_j68582037782900_1_alg».proof.Proof.ColumnJoin

noncomputable section

namespace Cert.ReferenceIdeal.RefValue

open Cert.ReferenceIdeal Cert.ReferenceIdeal.Gen Cert.ReferenceIdeal.Read Idealize.ShloMosaic Idealize.ShloMosaic.TcCoe Idealize.SL.Sem
open Idealize.ShloMosaic.ValueIdx
open Cert.ColumnJoin

variable {F : FTy → Type} [FloatOps F]

/-- A coordinate of a rank-2 index other than the column axis is the row axis. -/
theorem row_of_ne_col {P : Fin 2 → Prop} (h : P 0) (b : Fin 2) (hb : b ≠ 1) : P b :=
  match b, hb with
  | ⟨0, _⟩, _ => h
  | ⟨1, _⟩, hb => absurd rfl hb

/-- The reference's first result is the first column join of the arguments. -/
theorem first_result (x0 : (⟨S16384x512, .f32⟩ : BufTy).Contents (Elt F)) (x1 : (⟨S16384x768, .f32⟩ : BufTy).Contents (Elt F))
    (x2 : (⟨S16384x256, .f32⟩ : BufTy).Contents (Elt F)) :
    val_main_v2 (F := F) x0 x1 x2 = joinA (R := 16384) x0 x1 x2 := by
  funext i
  have hi0 : (i 0).val < 16384 := (i 0).isLt
  have hi1 : (i 1).val < 640 := (i 1).isLt
  unfold val_main_v2
  by_cases h1 : (i 1).val < 128
  · let j : S16384x128.Idx := ix2 (n0 := 16384) (n1 := 128) ⟨(i 0).val, hi0⟩ ⟨(i 1).val, h1⟩
    refine (concatenate_apply_piece _ _ _ i 0 (by simp only [List.length_cons, List.length_nil]; omega) S16384x128 (val_main_v0 (F := F) x0) rfl rfl 0 rfl j
      (fun b hb => row_of_ne_col (P := fun b => (j b).val = (i b).val) rfl b hb) (by show 0 + (i 1).val = (i 1).val; omega)).trans ?_
    rw [val_main_v0_apply]
    exact (joinA_lo x0 x1 x2 i h1 _ rfl rfl).symm
  · by_cases h2 : (i 1).val < 384
    · let j : S16384x256.Idx := ix2 (n0 := 16384) (n1 := 256) ⟨(i 0).val, hi0⟩ ⟨(i 1).val - 128, by omega⟩
      refine (concatenate_apply_piece _ _ _ i 1 (by simp only [List.length_cons, List.length_nil]; omega) S16384x256 (val_main_v1 (F := F) x1) rfl rfl 128 rfl j
        (fun b hb => row_of_ne_col (P := fun b => (j b).val = (i b).val) rfl b hb) (by show 128 + ((i 1).val - 128) = (i 1).val; omega)).trans ?_
      rw [val_main_v1_apply]
      exact (joinA_mid x0 x1 x2 i (by omega) h2 _ rfl (by show (i 1).val - 128 + 128 = (i 1).val; omega)).symm
    · let j : S16384x256.Idx := ix2 (n0 := 16384) (n1 := 256) ⟨(i 0).val, hi0⟩ ⟨(i 1).val - 384, by omega⟩
      refine (concatenate_apply_piece _ _ _ i 2 (by simp only [List.length_cons, List.length_nil]; omega) S16384x256 x2 rfl rfl 384 rfl j
        (fun b hb => row_of_ne_col (P := fun b => (j b).val = (i b).val) rfl b hb) (by show 384 + ((i 1).val - 384) = (i 1).val; omega)).trans ?_
      exact (joinA_hi x0 x1 x2 i (by omega) j rfl (by show (i 1).val - 384 + 384 = (i 1).val; omega)).symm

/-- The reference's second result is the second column join of the arguments. -/
theorem second_result (x0 : (⟨S16384x512, .f32⟩ : BufTy).Contents (Elt F)) (x1 : (⟨S16384x768, .f32⟩ : BufTy).Contents (Elt F)) :
    val_main_v6 (F := F) x0 x1 = joinB (R := 16384) x0 x1 := by
  funext i
  have hi0 : (i 0).val < 16384 := (i 0).isLt
  have hi1 : (i 1).val < 896 := (i 1).isLt
  unfold val_main_v6
  by_cases h1 : (i 1).val < 256
  · let j : S16384x256.Idx := ix2 (n0 := 16384) (n1 := 256) ⟨(i 0).val, hi0⟩ ⟨(i 1).val, h1⟩
    refine (concatenate_apply_piece _ _ _ i 0 (by simp only [List.length_cons, List.length_nil]; omega) S16384x256 (val_main_v3 (F := F) x0) rfl rfl 0 rfl j
      (fun b hb => row_of_ne_col (P := fun b => (j b).val = (i b).val) rfl b hb) (by show 0 + (i 1).val = (i 1).val; omega)).trans ?_
    rw [val_main_v3_apply]
    exact (joinB_lo x0 x1 i h1 _ rfl (by show 128 + (i 1).val = (i 1).val + 128; omega)).symm
  · by_cases h2 : (i 1).val < 768
    · let j : S16384x512.Idx := ix2 (n0 := 16384) (n1 := 512) ⟨(i 0).val, hi0⟩ ⟨(i 1).val - 256, by omega⟩
      refine (concatenate_apply_piece _ _ _ i 1 (by simp only [List.length_cons, List.length_nil]; omega) S16384x512 (val_main_v4 (F := F) x1) rfl rfl 256 rfl j
        (fun b hb => row_of_ne_col (P := fun b => (j b).val = (i b).val) rfl b hb) (by show 256 + ((i 1).val - 256) = (i 1).val; omega)).trans ?_
      rw [val_main_v4_apply]
      exact (joinB_mid x0 x1 i (by omega) h2 _ rfl (by show 256 + ((i 1).val - 256) = (i 1).val; omega)).symm
    · let j : S16384x128.Idx := ix2 (n0 := 16384) (n1 := 128) ⟨(i 0).val, hi0⟩ ⟨(i 1).val - 768, by omega⟩
      refine (concatenate_apply_piece _ _ _ i 2 (by simp only [List.length_cons, List.length_nil]; omega) S16384x128 (val_main_v5 (F := F) x0) rfl rfl 768 rfl j
        (fun b hb => row_of_ne_col (P := fun b => (j b).val = (i b).val) rfl b hb) (by show 768 + ((i 1).val - 768) = (i 1).val; omega)).trans ?_
      rw [val_main_v5_apply]
      exact (joinB_hi x0 x1 i (by omega) _ rfl (by show 384 + ((i 1).val - 768) + 384 = (i 1).val; omega)).symm

end Cert.ReferenceIdeal.RefValue

end
-- ==== Proof.lean ====
/-
  The certificate of a column permutation: two results, each a row-wise join of column bands of three
  argument matrices (16384 rows; 512, 768 and 256 columns), with no arithmetic.

    first result  (640 columns) = a[:, 0..128]   | b[:, 0..256]   | d[:, 0..256]
    second result (896 columns) = a[:, 128..384] | b[:, 256..768] | a[:, 384..512]

  The kernel computes them 1024 rows at a time: at each of 16 grid points it loads the three row blocks,
  and stores column slices of them into bands of the two result blocks. The reference slices the same
  bands out of the whole arguments and concatenates them. Both are the functions `ColumnJoin.joinA` and
  `ColumnJoin.joinB` of the arguments, index by index: for the kernel, block by block (`BlockValue`) and
  then over the 16 blocks that tile each result (`ArrayValue`); for the reference, by reading each
  concatenation and slice at an index (`RefValue`). Since only positions move, the two agree on every
  extended real and the finiteness of the inputs is never used. The idealization rewrote nothing, so the
  kernel's idealized program is its own text and that claim is trivial. The two kernel frames are the
  generated ones; the reference's frame is its generated run with the results dropped.
-/
import proofs.«154028_j68582037782900_1_alg».proof.Defs
import proofs.«154028_j68582037782900_1_alg».proof.Proof.Gen.Kernel
import proofs.«154028_j68582037782900_1_alg».proof.Proof.Gen.Kernel.Skeleton
import proofs.«154028_j68582037782900_1_alg».proof.Proof.Gen.Kernel.Launch
import proofs.«154028_j68582037782900_1_alg».proof.Proof.Gen.Kernel.Points
import proofs.«154028_j68582037782900_1_alg».proof.Proof.Gen.Kernel.Frame
import proofs.«154028_j68582037782900_1_alg».proof.Proof.Gen.KernelIdeal
import proofs.«154028_j68582037782900_1_alg».proof.Proof.Gen.KernelIdeal.Skeleton
import proofs.«154028_j68582037782900_1_alg».proof.Proof.Gen.KernelIdeal.Launch
import proofs.«154028_j68582037782900_1_alg».proof.Proof.Gen.KernelIdeal.Points
import proofs.«154028_j68582037782900_1_alg».proof.Proof.Gen.KernelIdeal.Frame
import proofs.«154028_j68582037782900_1_alg».proof.Proof.Gen.ReferenceIdeal
import proofs.«154028_j68582037782900_1_alg».proof.Proof.Gen.Pre_finite_inputs
import proofs.«154028_j68582037782900_1_alg».proof.Proof.Gen.KernelIdeal.Value
import proofs.«154028_j68582037782900_1_alg».proof.Proof.Gen.ReferenceIdeal.Run
import proofs.«154028_j68582037782900_1_alg».proof.Proof.Gen.ReferenceIdeal.Read
import proofs.«154028_j68582037782900_1_alg».proof.Proof.ColumnJoin
import proofs.«154028_j68582037782900_1_alg».proof.Proof.BlockJoin
import proofs.«154028_j68582037782900_1_alg».proof.Proof.ArrayJoin
import proofs.«154028_j68582037782900_1_alg».proof.Proof.ReferenceJoin
import Idealize.ShloMosaic.Adequacy
import Idealize.ShloMosaic.Init

noncomputable section

namespace Cert.Proof

open Idealize.ShloMosaic Idealize.ShloMosaic.TcCoe Idealize.SL.Sem

/-- The kernel as printed runs to the end without a fault and leaves its arguments as they were. -/
theorem frame_kernel : Cert.frame_Kernel := fun m ρ _ => Cert.Kernel.Gen.frame m ρ

/-- So does its idealized text. -/
theorem frame_kernel_ideal : Cert.frame_KernelIdeal := fun m ρ _ => Cert.KernelIdeal.Gen.frame m ρ

/-- The reference runs to the end and leaves its arguments as they were: its run, the results dropped. -/
theorem frame_reference : Cert.frame_ReferenceIdeal := fun m ρ _ =>
  (θ_run Cert.ReferenceIdeal.defs _ _).mono (fun _ h c => (h c).2.2) (Cert.ReferenceIdeal.Value.run (F := Ideal) m ρ)

/-- From memories that agree on the three arguments both programs end with the first result at the first
    column join of the arguments and the second result at the second: the kernel by its 16 row blocks, the
    reference by its slices and concatenations read at an index. -/
theorem algebraic : Cert.algebraic_KernelIdeal_ReferenceIdeal := by
  intro m ρ m' ρ' _ hagree
  refine ⟨_, _, Cert.KernelIdeal.ArrayValue.run (F := Ideal) m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · rw [(hagree c).1, (hagree c).2.1, (hagree c).2.2]
    exact (Cert.ReferenceIdeal.Read.val_main_v2_eq _ _ _).trans (Cert.ReferenceIdeal.RefValue.first_result _ _ _)
  · rw [(hagree c).1, (hagree c).2.1]
    exact (Cert.ReferenceIdeal.Read.val_main_v6_eq _ _).trans (Cert.ReferenceIdeal.RefValue.second_result _ _)

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, trivial, algebraic⟩

end Cert.Proof

end
